-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S65536x2 : Shape := ⟨2, ![65536, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_

variable [Facts]

def fn {F : FTy → Type} [FloatOps F] (main_arg0 : FVec F S4096x2 .f32) (main_arg1 : FVec F S4096x2 .f32) (main_arg2 : FVec F S65536x2 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  main_v13
-- ==== Kernel.lean ====
abbrev S4096x2 : Shape := ⟨2, ![4096, 2]⟩
abbrev S65536x2 : Shape := ⟨2, ![65536, 2]⟩
abbrev S4096x1 : Shape := ⟨2, ![4096, 1]⟩
abbrev S4096 : Shape := ⟨1, ![4096]⟩
abbrev S1x4096 : Shape := ⟨2, ![1, 4096]⟩
abbrev S_ : Shape := ⟨0, ![]⟩
abbrev S4096x3 : Shape := ⟨2, ![4096, 3]⟩
abbrev S65536x3 : Shape := ⟨2, ![65536, 3]⟩
abbrev S512x2 : Shape := ⟨2, ![512, 2]⟩
abbrev S512x3 : Shape := ⟨2, ![512, 3]⟩
abbrev S512x1 : Shape := ⟨2, ![512, 1]⟩
abbrev S512x4096 : Shape := ⟨2, ![512, 4096]⟩
abbrev S256x256x3 : Shape := ⟨3, ![256, 256, 3]⟩
abbrev S3x256x256 : Shape := ⟨3, ![3, 256, 256]⟩
abbrev S1x3x256x256 : Shape := ⟨4, ![1, 3, 256, 256]⟩

abbrev nBuf : Space → Nat
  | .hbm => 21
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S4096x2, .f32⟩
  | .hbm, ⟨2, _⟩ => ⟨S65536x2, .f32⟩
  | .hbm, ⟨3, _⟩ => ⟨S4096x1, .f32⟩
  | .hbm, ⟨4, _⟩ => ⟨S4096, .f32⟩
  | .hbm, ⟨5, _⟩ => ⟨S1x4096, .f32⟩
  | .hbm, ⟨6, _⟩ => ⟨S4096x1, .f32⟩
  | .hbm, ⟨7, _⟩ => ⟨S4096, .f32⟩
  | .hbm, ⟨8, _⟩ => ⟨S1x4096, .f32⟩
  | .hbm, ⟨9, _⟩ => ⟨S4096x2, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S_, .f32⟩
  | .hbm, ⟨14, _⟩ => ⟨S4096x1, .f32⟩
  | .hbm, ⟨15, _⟩ => ⟨S4096x3, .f32⟩
  | .hbm, ⟨16, _⟩ => ⟨S4096x3, .bf16⟩
  | .hbm, ⟨17, _⟩ => ⟨S65536x3, .f32⟩
  | .hbm, ⟨18, _⟩ => ⟨S256x256x3, .f32⟩
  | .hbm, ⟨19, _⟩ => ⟨S3x256x256, .f32⟩
  | .hbm, ⟨20, _⟩ => ⟨S1x3x256x256, .f32⟩
  | .local _ .vmem, ⟨0, _⟩ => ⟨S512x2, .f32⟩
  | .local _ .vmem, ⟨1, _⟩ => ⟨S512x2, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x3, .bf16⟩
  | .local _ .vmem, ⟨6, _⟩ => ⟨S512x3, .f32⟩
  | .local _ .vmem, ⟨7, _⟩ => ⟨S512x3, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4096x2_S4096x1_0_0 : S4096x2.Slices ![0, 0] S4096x1
  shapeCasts_S4096x1_S4096 : S4096x1.ShapeCasts S4096
  bcast_S4096_S1x4096_1 : S4096.BroadcastsInDim S1x4096 (![1] : Fin 1 → Fin S1x4096.rank)
  slices_S4096x2_S4096x1_0_1 : S4096x2.Slices ![0, 1] S4096x1
  reducesTo_S4096x2_S4096_d1 : S4096x2.ReducesTo [1] S4096
  h_S_ : 0 < S_.numel
  bcast_S_S4096x1 : S_.BroadcastsInDim S4096x1 (![] : Fin 0 → Fin S4096x1.rank)
  concatenates_S4096x1_S4096x2_S4096x3_d1 : Shape.Concatenates [S4096x1, S4096x2] S4096x3 1
  bitsLt_bf16_f32 : FTy.bits .bf16 < FTy.bits .f32
  inb_S512x2_S512x1_0_0 : ∀ a, (![0, 0] : Fin 2 → Nat) a + S512x1.size a ≤ S512x2.size a
  h_S512x1 : 0 < S512x1.numel
  inb_S512x2_S512x1_0_1 : ∀ a, (![0, 1] : Fin 2 → Nat) a + S512x1.size a ≤ S512x2.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  slices_S512x3_o0_0_S512x1 : S512x3.Slices ![0, 0] S512x1
  slices_S512x3_o0_1_S512x2 : S512x3.Slices ![0, 1] S512x2
  broadcasts_S512x1_S512x2 : S512x1.Broadcasts S512x2
  inb_S512x3_S512x1_0_0 : ∀ a, (![0, 0] : Fin 2 → Nat) a + S512x1.size a ≤ S512x3.size a
  inb_S512x3_S512x2_0_1 : ∀ a, (![0, 1] : Fin 2 → Nat) a + S512x2.size a ≤ S512x3.size a
  h_S512x2 : 0 < S512x2.numel
  shapeCasts_S65536x3_S256x256x3 : S65536x3.ShapeCasts S256x256x3
  transposes_S256x256x3_S3x256x256_2_1_0 : S256x256x3.Transposes [2, 1, 0] S3x256x256
  bcast_S3x256x256_S1x3x256x256_1_2_3 : S3x256x256.BroadcastsInDim S1x3x256x256 (![1, 2, 3] : Fin 3 → Fin S1x3x256x256.rank)
  dot_S512x4096_S4096x3_S512x3_1_0_0_1_n_n_wf : DotDims.WF S512x4096 S4096x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S65536x2.size a
  hwx0_0 : ∀ i : grid0.Coords, EltTy.bits .f32 = 32 ∨ (Rect.block (s := S65536x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S4096x3.size a
  hwx0_4 : ∀ i : grid0.Coords, EltTy.bits .bf16 = 32 ∨ (Rect.block (s := S4096x3) S4096x3.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3.size a ≤ S65536x3.size a
  hwx0_5 : ∀ i : grid0.Coords, EltTy.bits .f32 = 32 ∨ (Rect.block (s := S65536x3) S512x3.size (cc0_transform_5 i) (hinb0_5 i)).WholeWords (EltTy.packing .f32)

variable [Facts₀]

def dot_S512x4096_S4096x3_S512x3_1_0_0_1_n_n : DotDims S512x4096 S4096x3 S512x3 where
  lhsContracting := [1]
  rhsContracting := [0]
  lhsNonContracting := [0]
  rhsNonContracting := [1]
  lhsBatch := []
  rhsBatch := []
  wf := dot_S512x4096_S4096x3_S512x3_1_0_0_1_n_n_wf

abbrev win0_0 : Pipeline.Window sig grid0 :=
  Pipeline.Window.ofSpec (Memref.whole main_arg2) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4096x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2 : Shape := ⟨2, ![4096, 2]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S4096 : Shape := ⟨1, ![4096]⟩
abbrev S1x4096 : Shape := ⟨2, ![1, 4096]⟩
abbrev S65536x4096 : Shape := ⟨2, ![65536, 4096]⟩
abbrev S2x4096 : Shape := ⟨2, ![2, 4096]⟩
abbrev S4096x1 : Shape := ⟨2, ![4096, 1]⟩
abbrev S4096x3 : Shape := ⟨2, ![4096, 3]⟩
abbrev S65536x3 : Shape := ⟨2, ![65536, 3]⟩
abbrev S256x256x3 : Shape := ⟨3, ![256, 256, 3]⟩
abbrev S3x256x256 : Shape := ⟨3, ![3, 256, 256]⟩
abbrev S1x3x256x256 : Shape := ⟨4, ![1, 3, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S4096x2, .f32⟩
  | .hbm, ⟨2, _⟩ => ⟨S65536x2, .f32⟩
  | .hbm, ⟨3, _⟩ => ⟨S65536x2, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S4096x2, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S65536x4096, .f32⟩
  | .hbm, ⟨12, _⟩ => ⟨S65536x4096, .f32⟩
  | .hbm, ⟨13, _⟩ => ⟨S65536x4096, .f32⟩
  | .hbm, ⟨14, _⟩ => ⟨S_, .f32⟩
  | .hbm, ⟨15, _⟩ => ⟨S65536x2, .f32⟩
  | .hbm, ⟨16, _⟩ => ⟨S65536x2, .f32⟩
  | .hbm, ⟨17, _⟩ => ⟨S2x4096, .f32⟩
  | .hbm, ⟨18, _⟩ => ⟨S65536x4096, .f32⟩
  | .hbm, ⟨19, _⟩ => ⟨S65536x4096, .f32⟩
  | .hbm, ⟨20, _⟩ => ⟨S_, .f32⟩
  | .hbm, ⟨21, _⟩ => ⟨S65536x4096, .f32⟩
  | .hbm, ⟨22, _⟩ => ⟨S65536x4096, .f32⟩
  | .hbm, ⟨23, _⟩ => ⟨S_, .f32⟩
  | .hbm, ⟨24, _⟩ => ⟨S65536x4096, .f32⟩
  | .hbm, ⟨25, _⟩ => ⟨S65536x4096, .f32⟩
  | .hbm, ⟨26, _⟩ => ⟨S65536x4096, .f32⟩
  | .hbm, ⟨27, _⟩ => ⟨S_, .f32⟩
  | .hbm, ⟨28, _⟩ => ⟨S4096x1, .f32⟩
  | .hbm, ⟨29, _⟩ => ⟨S4096x3, .f32⟩
  | .hbm, ⟨30, _⟩ => ⟨S65536x3, .f32⟩
  | .hbm, ⟨31, _⟩ => ⟨S65536x1, .f32⟩
  | .hbm, ⟨32, _⟩ => ⟨S65536x2, .f32⟩
  | .hbm, ⟨33, _⟩ => ⟨S65536x2, .f32⟩
  | .hbm, ⟨34, _⟩ => ⟨S65536x2, .f32⟩
  | .hbm, ⟨35, _⟩ => ⟨S65536x3, .f32⟩
  | .hbm, ⟨36, _⟩ => ⟨S256x256x3, .f32⟩
  | .hbm, ⟨37, _⟩ => ⟨S3x256x256, .f32⟩
  | .hbm, ⟨38, _⟩ => ⟨S1x3x256x256, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  reducesTo_S4096x2_S4096_d1 : S4096x2.ReducesTo [1] S4096
  bcast_S4096_S1x4096_1 : S4096.BroadcastsInDim S1x4096 (![1] : Fin 1 → Fin S1x4096.rank)
  bcast_S65536x1_S65536x4096_0_1 : S65536x1.BroadcastsInDim S65536x4096 (![0, 1] : Fin 2 → Fin S65536x4096.rank)
  bcast_S1x4096_S65536x4096_0_1 : S1x4096.BroadcastsInDim S65536x4096 (![0, 1] : Fin 2 → Fin S65536x4096.rank)
  bcast_S_S65536x2 : S_.BroadcastsInDim S65536x2 (![] : Fin 0 → Fin S65536x2.rank)
  transposes_S4096x2_S2x4096_1_0 : S4096x2.Transposes [1, 0] S2x4096
  bcast_S_S65536x4096 : S_.BroadcastsInDim S65536x4096 (![] : Fin 0 → Fin S65536x4096.rank)
  bcast_S_S4096x1 : S_.BroadcastsInDim S4096x1 (![] : Fin 0 → Fin S4096x1.rank)
  concatenates_S4096x1_S4096x2_S4096x3_d1 : Shape.Concatenates [S4096x1, S4096x2] S4096x3 1
  slices_S65536x3_S65536x1_0_0 : S65536x3.Slices ![0, 0] S65536x1
  slices_S65536x3_S65536x2_0_1 : S65536x3.Slices ![0, 1] S65536x2
  bcast_S65536x1_S65536x2_0_1 : S65536x1.BroadcastsInDim S65536x2 (![0, 1] : Fin 2 → Fin S65536x2.rank)
  concatenates_S65536x1_S65536x2_S65536x3_d1 : Shape.Concatenates [S65536x1, S65536x2] S65536x3 1
  shapeCasts_S65536x3_S256x256x3 : S65536x3.ShapeCasts S256x256x3
  transposes_S256x256x3_S3x256x256_2_1_0 : S256x256x3.Transposes [2, 1, 0] S3x256x256
  bcast_S3x256x256_S1x3x256x256_1_2_3 : S3x256x256.BroadcastsInDim S1x3x256x256 (![1, 2, 3] : Fin 3 → Fin S1x3x256x256.rank)
  dot_S65536x2_S2x4096_S65536x4096_1_0_0_1_n_n_wf : DotDims.WF S65536x2 S2x4096 S65536x4096 [1] [0] [0] [1] [] []
  dot_S65536x4096_S4096x3_S65536x3_1_0_0_1_n_n_wf : DotDims.WF S65536x4096 S4096x3 S65536x3 [1] [0] [0] [1] [] []

variable [Facts₀]

def dot_S65536x2_S2x4096_S65536x4096_1_0_0_1_n_n : DotDims S65536x2 S2x4096 S65536x4096 where
  lhsContracting := [1]
  rhsContracting := [0]
  lhsNonContracting := [0]
  rhsNonContracting := [1]
  lhsBatch := []
  rhsBatch := []
  wf := dot_S65536x2_S2x4096_S65536x4096_1_0_0_1_n_n_wf
def dot_S65536x4096_S4096x3_S65536x3_1_0_0_1_n_n : DotDims S65536x4096 S4096x3 S65536x3 where
  lhsContracting := [1]
  rhsContracting := [0]
  lhsNonContracting := [0]
  rhsNonContracting := [1]
  lhsBatch := []
  rhsBatch := []
  wf := dot_S65536x4096_S4096x3_S65536x3_1_0_0_1_n_n_wf

class Facts : Prop extends Facts₀ where

variable [Facts]
-- ==== Proof.Spec.lean ====
/-
  The set-convolution feature map, as one function of the three argument arrays.

  For a grid point g = grid[r, :] and a context point x = X[n, :] the squared distance is spelt expanded,
      sq(r, n) = (g₀² + g₁²) + (0 + Σₖ xₖ²) − 2·(g₀·x₀ + g₁·x₁),
  the radial weight is  gram(r, n) = exp(−½ · sq(r, n)),  the expanded targets are  ey(n, ·) = [1 | Y[n, :]],  and
      feat(r, q) = Σₙ gram(r, n) · ey(n, q).
  The result row is  [ feat(r,0), feat(r,1)/feat(r,0), feat(r,2)/feat(r,0) ]  (density, then the normalised channels).

  Two spellings of the cross term occur: 2·(g₀x₀ + g₁x₁), and Σₖ (2·gₖ)·xₖ. On the extended reals a product
  with a non-negative REAL distributes over every sum (also at the infinities), and products associate, so the two
  are equal with no finiteness assumption (`sq_of_scaled_dot`). A quotient by the word of 1.0 is the identity.
-/
import Idealize.ShloMosaic.Lib.ValueIdx
import Idealize.ShloMosaic.PureOps.Ideal.Laws

noncomputable section

open scoped BigOperators

namespace Cert.SetConv

open Idealize.ShloMosaic Idealize.ShloMosaic.ValueIdx

/-- The context points and the targets: 4096 rows of two coordinates. -/
abbrev SX : Shape := ⟨2, ![4096, 2]⟩
/-- The grid: 65536 points of two coordinates. -/
abbrev SG : Shape := ⟨2, ![65536, 2]⟩
/-- The feature map: density and two normalised channels per grid point. -/
abbrev SO : Shape := ⟨2, ![65536, 3]⟩

/-! ## The literals -/

/-- The word of `1.0` denotes 1. -/
theorem one_word : Ideal.ofBits .f32 0x3F800000#32 = 1 := by
  simp [Ideal.ofBits, Ideal.ieee, -EReal.coe_mul]; norm_num

/-- The word of `2.0` denotes the real 2. -/
theorem two_word : Ideal.ofBits .f32 0x40000000#32 = ((2 : ℝ) : EReal) := by
  simp [Ideal.ofBits, Ideal.ieee, -EReal.coe_mul]; norm_num

/-- A quotient by the word of `1.0` is the dividend, on every extended real. -/
theorem div_one_word (y : EReal) : Ideal.div y (Ideal.ofBits .f32 0x3F800000#32) = y := by
  rw [one_word, ← EReal.coe_one, Ideal.div_coe one_ne_zero]
  simp

/-! ## The function -/

/-- The expanded squared distance between grid point `r` and context point `n`. -/
def sq (X : FVec Ideal SX .f32) (G : FVec Ideal SG .f32) (r : Fin 65536) (n : Fin 4096) : EReal :=
  ((G (ix2 r (0 : Fin 2)) * G (ix2 r (0 : Fin 2)) + G (ix2 r (1 : Fin 2)) * G (ix2 r (1 : Fin 2)))
      + (Ideal.ofBits .f32 0x00000000#32 + ∑ k : Fin 2, X (ix2 n k) * X (ix2 n k)))
    - Ideal.ofBits .f32 0x40000000#32
        * (G (ix2 r (0 : Fin 2)) * X (ix2 n (0 : Fin 2)) + G (ix2 r (1 : Fin 2)) * X (ix2 n (1 : Fin 2)))

/-- The radial weight of context point `n` at grid point `r`. -/
def gram (X : FVec Ideal SX .f32) (G : FVec Ideal SG .f32) (r : Fin 65536) (n : Fin 4096) : EReal :=
  Ideal.exp (Ideal.ofBits .f32 0xBF000000#32 * sq X G r n)

/-- The expanded targets `[1 | Y]`: column 0 is the constant 1, columns 1 and 2 are `Y`'s. -/
def ey (Y : FVec Ideal SX .f32) (n : Fin 4096) (q : Fin 3) : EReal :=
  if q.val = 0 then Ideal.ofBits .f32 0x3F800000#32
  else Y (ix2 n (⟨q.val - 1, by have := q.isLt; omega⟩ : Fin 2))

/-- Channel `q` of the unnormalised features at grid point `r`. -/
def feat (X Y : FVec Ideal SX .f32) (G : FVec Ideal SG .f32) (r : Fin 65536) (q : Fin 3) : EReal :=
  ∑ n : Fin 4096, gram X G r n * ey Y n q

/-- The result row by coordinates: the density, then the channels over the density. -/
def fm (X Y : FVec Ideal SX .f32) (G : FVec Ideal SG .f32) (r : Fin 65536) (q : Fin 3) : EReal :=
  if q.val = 0 then feat X Y G r q else Ideal.div (feat X Y G r q) (feat X Y G r (0 : Fin 3))

/-- The feature map as an array. -/
def fmap (X Y : FVec Ideal SX .f32) (G : FVec Ideal SG .f32) : FVec Ideal SO .f32 :=
  fun i => fm X Y G ⟨(i 0).val, idx2_lt0 i⟩ ⟨(i 1).val, idx2_lt1 i⟩

theorem fmap_ix2 (X Y : FVec Ideal SX .f32) (G : FVec Ideal SG .f32) (r : Fin 65536) (q : Fin 3) :
    fmap X Y G (ix2 r q) = fm X Y G r q := rfl

/-! ## The cross term spelt as a scaled dot product -/

/-- `(0 + Σₖ gₖ²) + xsq − Σₖ (2·gₖ)·xₖ` is the expanded squared distance: the zero is neutral, the two-term sums are
    written out, the real 2 distributes over the sum and the products associate. -/
theorem sq_of_scaled_dot (X : FVec Ideal SX .f32) (G : FVec Ideal SG .f32) (r : Fin 65536) (n : Fin 4096) :
    ((Ideal.ofBits .f32 0x00000000#32 + ∑ k : Fin 2, G (ix2 r k) * G (ix2 r k))
        + (Ideal.ofBits .f32 0x00000000#32 + ∑ k : Fin 2, X (ix2 n k) * X (ix2 n k)))
      - ∑ k : Fin 2, (Ideal.ofBits .f32 0x40000000#32 * G (ix2 r k)) * X (ix2 n k)
    = sq X G r n := by
  unfold sq
  have hd : ∀ a b : EReal, ((2 : ℝ) : EReal) * (a + b) = ((2 : ℝ) : EReal) * a + ((2 : ℝ) : EReal) * b :=
    fun a b => EReal.left_distrib_of_nonneg_of_ne_top (by exact_mod_cast (by norm_num : (0 : ℝ) ≤ 2)) (EReal.coe_ne_top _) a b
  rw [Fin.sum_univ_two (f := fun k : Fin 2 => G (ix2 r k) * G (ix2 r k)),
    Fin.sum_univ_two (f := fun k : Fin 2 => (Ideal.ofBits .f32 0x40000000#32 * G (ix2 r k)) * X (ix2 n k)),
    two_word, hd, mul_assoc, mul_assoc, Ideal.ofBits_zero_f32, zero_add, zero_add]

end Cert.SetConv

end
-- ==== Proof.RefValue.lean ====
/-
  The reference's result, read index by index, is the set-convolution feature map.

  Row r of the reference's last two-dimensional value is
      [ feat(r,0), feat(r,1)/feat(r,0), feat(r,2)/feat(r,0) ],
  where feat(r,q) = Σₙ exp(−½·sq(r,n)) · [1 | Y](n,q). The reference spells sq(r,n) as
      (0 + Σₖ gₖ²) + (0 + Σₖ xₖ²) − Σₖ (2·gₖ)·xₖ
  (two row sums, broadcast along the other axis, less a contraction of 2·grid with the transposed context points),
  and divides −½·sq by the constant 1 before the exponential. Both joins along the column axis are read one column
  at a time: column 0 comes from the first piece, columns 1 and 2 from the second piece at the column less one.
-/
import proofs.«178940_j65755949301956_1_alg».proof.Proof.Gen.ReferenceIdeal.Read
import proofs.«178940_j65755949301956_1_alg».proof.Proof.Spec

noncomputable section

open scoped BigOperators

open Idealize.ShloMosaic Idealize.ShloMosaic.ValueIdx

namespace Cert.ReferenceIdeal.RefValue

open Cert.ReferenceIdeal Cert.ReferenceIdeal.Gen Cert.ReferenceIdeal.Read

/-- The reference's exponential at (r, n) is the radial weight of context point n at grid point r.
    Every broadcast reads its operand at the coordinates it keeps, so the two row sums are taken along row r of
    the grid and row n of the context points, and the contraction runs over the two coordinates of both; what is
    left is the expanded squared distance with its cross term spelt as a scaled dot product, halved and negated,
    over the constant 1. -/
theorem gram_eq (x0 : (⟨S4096x2, .f32⟩ : BufTy).Contents (Elt Ideal)) (x2 : (⟨S65536x2, .f32⟩ : BufTy).Contents (Elt Ideal))
    (r : Fin 65536) (n : Fin 4096) :
    val_main_v18 (F := Ideal) x0 x2 (ix2 r n) = Cert.SetConv.gram x0 x2 r n := by
  -- the index each composed read lands on: row r of the grid, row n of the context points, coordinate k
  have eg : ∀ k : Fin 2, idx_main_v1 (idx_main_v2 (idx_main_v6 (ix2 r n))) k = ix2 r k := fun k =>
    funext fun a => Fin.ext (by match a with | ⟨0, _⟩ => rfl | ⟨1, _⟩ => rfl)
  have ex : ∀ k : Fin 2, idx_main_v4 (idx_main_v5 (idx_main_v7 (ix2 r n))) k = ix2 n k := fun k =>
    funext fun a => Fin.ext (by match a with | ⟨0, _⟩ => rfl | ⟨1, _⟩ => rfl)
  have el : ∀ k : Fin 2, lidx_main_v12 (ix2 r n) k = ix2 r k := fun k =>
    funext fun a => Fin.ext (by match a with | ⟨0, _⟩ => rfl | ⟨1, _⟩ => rfl)
  have er : ∀ k : Fin 2, idx_main_v11 (ridx_main_v12 (ix2 r n) k) = ix2 n k := fun k =>
    funext fun a => Fin.ext (by match a with | ⟨0, _⟩ => rfl | ⟨1, _⟩ => rfl)
  rw [val_main_v18_apply, val_main_v17_apply, val_main_v15_apply, val_main_v16_apply, val_main_v14_apply,
    val_main_v13_apply, val_main_v8_apply, val_main_v12_apply, val_main_v6_apply, val_main_v7_apply,
    val_main_v2_apply, val_main_v5_apply, val_main_v1_apply, val_main_v4_apply]
  simp only [val_main_v0_apply, val_main_v3_apply, val_main_v10_apply, val_main_v9_apply, val_main_v11_apply,
    val_main_cst_apply, val_main_cst_0_apply, val_main_cst_1_apply, val_main_cst_2_apply, val_main_cst_3_apply,
    eg, ex, el, er,
    Ideal.mulf_def, Ideal.addf_def, Ideal.subf_def, Ideal.hostDivf_def, Ideal.hostUnary_exp_def, Ideal.ofBits_def]
  rw [Cert.SetConv.sq_of_scaled_dot, Cert.SetConv.div_one_word]
  rfl

/-- The join of a column of ones with Y, at (n, q), is the expanded target: the constant 1 in column 0, and
    Y(n, q − 1) in columns 1 and 2. -/
theorem ey_eq (x1 : (⟨S4096x2, .f32⟩ : BufTy).Contents (Elt Ideal)) (n : Fin 4096) (q : Fin 3) :
    val_main_v20 (F := Ideal) x1 (ix2 n q) = Cert.SetConv.ey x1 n q := by
  unfold val_main_v20 Cert.SetConv.ey
  by_cases hq : q.val = 0
  · -- column 0 lies in the first piece, whose every element is the constant
    rw [if_pos hq]
    refine (concatenate_pair_apply_left (1 : Fin S4096x3.rank) (val_main_v19 (F := Ideal)) x1
      concatenates_S4096x1_S4096x2_S4096x3_d1 (ix2 n q) rfl (ix2 n (0 : Fin 1)) (fun b => ?_)).trans ?_
    · match b with
      | ⟨0, _⟩ => rfl
      | ⟨1, _⟩ => show (0 : Nat) = q.val; omega
    · rw [val_main_v19_apply, val_main_cst_4_apply, Ideal.ofBits_def]
  · -- columns 1 and 2 lie in the second piece, one column to the left
    rw [if_neg hq]
    refine concatenate_pair_apply_right (1 : Fin S4096x3.rank) (val_main_v19 (F := Ideal)) x1
      concatenates_S4096x1_S4096x2_S4096x3_d1 (ix2 n q) rfl rfl
      (ix2 n (⟨q.val - 1, by have := q.isLt; omega⟩ : Fin 2)) (fun b => ?_) ?_
    · match b with
      | ⟨0, _⟩ => exact fun _ => rfl
      | ⟨1, _⟩ => exact fun h => absurd rfl h
    · show q.val - 1 + 1 = q.val
      omega

/-- The reference's second contraction at (r, q) is channel q of the unnormalised features: the sum over the context
    points n of the radial weight at (r, n) times the expanded target at (n, q). -/
theorem feat_eq (x0 x1 : (⟨S4096x2, .f32⟩ : BufTy).Contents (Elt Ideal)) (x2 : (⟨S65536x2, .f32⟩ : BufTy).Contents (Elt Ideal))
    (r : Fin 65536) (q : Fin 3) :
    val_main_v21 (F := Ideal) x0 x1 x2 (ix2 r q) = Cert.SetConv.feat x0 x1 x2 r q := by
  rw [val_main_v21_apply]
  unfold Cert.SetConv.feat
  refine Finset.sum_congr rfl fun n _ => ?_
  have el : lidx_main_v21 (ix2 r q) n = ix2 r n :=
    funext fun a => Fin.ext (by match a with | ⟨0, _⟩ => rfl | ⟨1, _⟩ => rfl)
  have er : ridx_main_v21 (ix2 r q) n = ix2 n q :=
    funext fun a => Fin.ext (by match a with | ⟨0, _⟩ => rfl | ⟨1, _⟩ => rfl)
  rw [el, er, gram_eq, ey_eq]

/-- Row r of the joined result, column by column: column 0 is the density feat(r, 0), taken from the one-column
    slice; columns 1 and 2 come from the quotient of the two-column slice (columns 1 and 2 of the features) by the
    density broadcast along the columns. -/
theorem rows_eq (x0 x1 : (⟨S4096x2, .f32⟩ : BufTy).Contents (Elt Ideal)) (x2 : (⟨S65536x2, .f32⟩ : BufTy).Contents (Elt Ideal))
    (r : Fin 65536) (q : Fin 3) :
    val_main_v26 (F := Ideal) x0 x1 x2 (ix2 r q) = Cert.SetConv.fm x0 x1 x2 r q := by
  unfold Cert.SetConv.fm val_main_v26
  by_cases hq : q.val = 0
  · rw [if_pos hq]
    refine (concatenate_pair_apply_left (1 : Fin S65536x3.rank) (val_main_v22 (F := Ideal) x0 x1 x2)
      (val_main_v25 (F := Ideal) x0 x1 x2) concatenates_S65536x1_S65536x2_S65536x3_d1 (ix2 r q) rfl
      (ix2 r (0 : Fin 1)) (fun b => ?_)).trans ?_
    · match b with
      | ⟨0, _⟩ => rfl
      | ⟨1, _⟩ => show (0 : Nat) = q.val; omega
    · -- the one-column slice starts at column 0, which is column q here
      have e0 : idx_main_v22 (ix2 r (0 : Fin 1)) = ix2 r q :=
        funext fun a => Fin.ext (by match a with | ⟨0, _⟩ => rfl | ⟨1, _⟩ => show (0 : Nat) = q.val; omega)
      rw [val_main_v22_apply, e0, feat_eq]
  · rw [if_neg hq]
    have hq2 : q.val - 1 < 2 := by have := q.isLt; omega
    refine (concatenate_pair_apply_right (1 : Fin S65536x3.rank) (val_main_v22 (F := Ideal) x0 x1 x2)
      (val_main_v25 (F := Ideal) x0 x1 x2) concatenates_S65536x1_S65536x2_S65536x3_d1 (ix2 r q) rfl rfl
      (ix2 r (⟨q.val - 1, hq2⟩ : Fin 2)) (fun b => ?_) ?_).trans ?_
    · match b with
      | ⟨0, _⟩ => exact fun _ => rfl
      | ⟨1, _⟩ => exact fun h => absurd rfl h
    · show q.val - 1 + 1 = q.val
      omega
    · -- the two-column slice starts at column 1, so its column q − 1 is column q; the divisor is column 0
      have e1 : idx_main_v23 (ix2 r (⟨q.val - 1, hq2⟩ : Fin 2)) = ix2 r q :=
        funext fun a => Fin.ext (by match a with | ⟨0, _⟩ => rfl | ⟨1, _⟩ => show 1 + (q.val - 1) = q.val; omega)
      have e2 : idx_main_v22 (idx_main_v24 (ix2 r (⟨q.val - 1, hq2⟩ : Fin 2))) = ix2 r (0 : Fin 3) :=
        funext fun a => Fin.ext (by match a with | ⟨0, _⟩ => rfl | ⟨1, _⟩ => rfl)
      rw [val_main_v25_apply, val_main_v23_apply, val_main_v24_apply, val_main_v22_apply, e1, e2,
        feat_eq, feat_eq, Ideal.hostDivf_def]

end Cert.ReferenceIdeal.RefValue

open Cert.ReferenceIdeal Cert.ReferenceIdeal.Read in
/-- The reference's joined result is the feature map, as arrays: they agree at every index (r, q). -/
theorem Cert.ReferenceIdeal.RefValue.feature_map_eq
    (x0 x1 : (⟨S4096x2, .f32⟩ : BufTy).Contents (Elt Ideal)) (x2 : (⟨S65536x2, .f32⟩ : BufTy).Contents (Elt Ideal)) :
    val_main_v26 (F := Ideal) x0 x1 x2 = Cert.SetConv.fmap x0 x1 x2 := by
  funext i
  obtain ⟨r, q, rfl⟩ : ∃ (r : Fin 65536) (q : Fin 3), i = ValueIdx.ix2 r q := ⟨i 0, i 1, ValueIdx.eq_ix2 i⟩
  rw [Cert.SetConv.fmap_ix2]
  exact Cert.ReferenceIdeal.RefValue.rows_eq x0 x1 x2 r q

end
-- ==== Proof.KPayload.lean ====
/-
  The kernel body's arithmetic at one entry of its 512-row block.

  With g₀, g₁ the two columns of the block's grid rows, x₀, x₁, xsq the three context rows (first coordinate, second
  coordinate, squared norm) and E the expanded targets [1 | Y], the body forms, for block row p and context point n,
      weight(p, n) = exp(−½ · ((g₀(p)² + g₁(p)²) + xsq(n) − 2·(g₀(p)·x₀(n) + g₁(p)·x₁(n)))),
  contracts it with E over n (a matrix product into a zero accumulator: the plain sum at the exact instance; the
  narrowing of the weights and of E to half precision is the identity there), keeps column 0 as the density and
  divides columns 1 and 2 by it.
-/
import proofs.«178940_j65755949301956_1_alg».proof.Proof.Gen.KernelIdeal.Skeleton
import proofs.«178940_j65755949301956_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## Layout operations of the body read at an entry -/

section Layout
variable {α : Type}

/-- A column of 512 values spread along 4096 lanes reads the column's row. -/
theorem col_to_slab (v : S512x1.Idx → α) (h : S512x1.Broadcasts S512x4096) (p : Fin 512) (n : Fin 4096) :
    broadcastTo S512x4096 v h (ix2 p n) = v (ix2 p (0 : Fin 1)) :=
  broadcastTo_apply v h (ix2 p n) (ix2 p (0 : Fin 1)) (fun a => match a with
    | ⟨0, _⟩ => by show p.val = if (512 : Nat) = 1 then 0 else p.val; rw [if_neg (by decide)]
    | ⟨1, _⟩ => by show 0 = if (1 : Nat) = 1 then 0 else n.val; rw [if_pos rfl])

/-- A row of 4096 values spread down 512 rows reads the row's lane. -/
theorem row_to_slab (v : S1x4096.Idx → α) (h : S1x4096.Broadcasts S512x4096) (p : Fin 512) (n : Fin 4096) :
    broadcastTo S512x4096 v h (ix2 p n) = v (ix2 (0 : Fin 1) n) :=
  broadcastTo_apply v h (ix2 p n) (ix2 (0 : Fin 1) n) (fun a => match a with
    | ⟨0, _⟩ => by show 0 = if (1 : Nat) = 1 then 0 else p.val; rw [if_pos rfl]
    | ⟨1, _⟩ => by show n.val = if (4096 : Nat) = 1 then 0 else n.val; rw [if_neg (by decide)])

/-- A column of 512 values spread along two lanes reads the column's row. -/
theorem col_to_pair (v : S512x1.Idx → α) (h : S512x1.Broadcasts S512x2) (p : Fin 512) (j : Fin 2) :
    broadcastTo S512x2 v h (ix2 p j) = v (ix2 p (0 : Fin 1)) :=
  broadcastTo_apply v h (ix2 p j) (ix2 p (0 : Fin 1)) (fun a => match a with
    | ⟨0, _⟩ => by show p.val = if (512 : Nat) = 1 then 0 else p.val; rw [if_neg (by decide)]
    | ⟨1, _⟩ => by show 0 = if (1 : Nat) = 1 then 0 else j.val; rw [if_pos rfl])

/-- Column 0 of a three-column block. -/
theorem first_col (y : S512x3.Idx → α) (h : S512x3.Slices ![0, 0] S512x1) (p : Fin 512) :
    extractStridedSlice S512x1 ![0, 0] y h (ix2 p (0 : Fin 1)) = y (ix2 p (0 : Fin 3)) :=
  extractStridedSlice_apply ![0, 0] y h (ix2 p (0 : Fin 1)) (ix2 p (0 : Fin 3)) (fun a => match a with
    | ⟨0, _⟩ => by show p.val = 0 + p.val; omega
    | ⟨1, _⟩ => by show 0 = 0 + 0; rfl)

/-- Columns 1 and 2 of a three-column block. -/
theorem last_cols (y : S512x3.Idx → α) (h : S512x3.Slices ![0, 1] S512x2) (p : Fin 512) (j : Fin 2) :
    extractStridedSlice S512x2 ![0, 1] y h (ix2 p j)
      = y (ix2 p (⟨1 + j.val, by have := j.isLt; omega⟩ : Fin 3)) :=
  extractStridedSlice_apply ![0, 1] y h (ix2 p j) (ix2 p (⟨1 + j.val, by have := j.isLt; omega⟩ : Fin 3)) (fun a => match a with
    | ⟨0, _⟩ => by show p.val = 0 + p.val; omega
    | ⟨1, _⟩ => by show 1 + j.val = 1 + j.val; rfl)

end Layout

/-- The exponential of a vector at an entry is the exponential of the entry. -/
theorem exp_at {s : Shape} {φ : FTy} (a : FVec Ideal s φ) (i : s.Idx) : Idealize.ShloMosaic.exp a i = Ideal.exp (a i) := rfl

/-! ## The contraction's operand indices -/

theorem lhs_axis0 (i : S512x3.Idx) (k : dot_S512x4096_S4096x3_S512x3_1_0_0_1_n_n.contr.Idx) :
    (dot_S512x4096_S4096x3_S512x3_1_0_0_1_n_n.lhsIdx i k 0).val = (i 0).val := by
  unfold DotDims.lhsIdx
  rw [dif_neg (show ¬(0 : Fin S512x4096.rank) ∈ dot_S512x4096_S4096x3_S512x3_1_0_0_1_n_n.lhsBatch by decide), dif_pos (show (0 : Fin S512x4096.rank) ∈ dot_S512x4096_S4096x3_S512x3_1_0_0_1_n_n.lhsNonContracting by decide)]
  rfl
theorem lhs_axis1 (i : S512x3.Idx) (k : dot_S512x4096_S4096x3_S512x3_1_0_0_1_n_n.contr.Idx) :
    (dot_S512x4096_S4096x3_S512x3_1_0_0_1_n_n.lhsIdx i k 1).val = (k ⟨0, by decide⟩).val :=
  dot_S512x4096_S4096x3_S512x3_1_0_0_1_n_n.lhsIdx_val_of_single rfl i k
theorem rhs_axis0 (i : S512x3.Idx) (k : dot_S512x4096_S4096x3_S512x3_1_0_0_1_n_n.contr.Idx) :
    (dot_S512x4096_S4096x3_S512x3_1_0_0_1_n_n.rhsIdx i k 0).val = (k ⟨0, by decide⟩).val :=
  dot_S512x4096_S4096x3_S512x3_1_0_0_1_n_n.rhsIdx_val_of_single rfl i k
theorem rhs_axis1 (i : S512x3.Idx) (k : dot_S512x4096_S4096x3_S512x3_1_0_0_1_n_n.contr.Idx) :
    (dot_S512x4096_S4096x3_S512x3_1_0_0_1_n_n.rhsIdx i k 1).val = (i 1).val := by
  unfold DotDims.rhsIdx
  rw [dif_neg (show ¬(1 : Fin S4096x3.rank) ∈ dot_S512x4096_S4096x3_S512x3_1_0_0_1_n_n.rhsBatch by decide), dif_pos (show (1 : Fin S4096x3.rank) ∈ dot_S512x4096_S4096x3_S512x3_1_0_0_1_n_n.rhsNonContracting by decide)]
  rfl

/-! ## The body's values -/

/-- The radial weight of context point `n` at block row `p`, from the block's two grid columns and the three context rows. -/
def weight (g0 g1 : Vec Ideal S512x1 .f32) (x0 x1 xsq : Vec Ideal S1x4096 .f32) (p : Fin 512) (n : Fin 4096) : EReal :=
  Ideal.exp (Ideal.ofBits .f32 0xBF000000#32
    * (((g0 (ix2 p (0 : Fin 1)) * g0 (ix2 p (0 : Fin 1)) + g1 (ix2 p (0 : Fin 1)) * g1 (ix2 p (0 : Fin 1))) + xsq (ix2 (0 : Fin 1) n))
        - Ideal.ofBits .f32 0x40000000#32
            * (g0 (ix2 p (0 : Fin 1)) * x0 (ix2 (0 : Fin 1) n) + g1 (ix2 p (0 : Fin 1)) * x1 (ix2 (0 : Fin 1) n))))

/-- Channel `q` of the unnormalised features at block row `p`. -/
def chan (g0 g1 : Vec Ideal S512x1 .f32) (x0 x1 xsq : Vec Ideal S1x4096 .f32) (E : Vec Ideal S4096x3 .bf16)
    (p : Fin 512) (q : Fin 3) : EReal :=
  ∑ n : Fin 4096, weight g0 g1 x0 x1 xsq p n * E (ix2 n q)

/-- The matrix product of the weights with the expanded targets, at an entry: the sum over the context points. -/
theorem pay1_apply (g0 g1 : Vec Ideal S512x1 .f32) (x0 x1 xsq : Vec Ideal S1x4096 .f32) (E : Vec Ideal S4096x3 .bf16)
    (p : Fin 512) (q : Fin 3) :
    k0_pay1 (F := Ideal) g0 g1 x0 x1 xsq E (ix2 p q) = chan g0 g1 x0 x1 xsq E p q := by
  unfold k0_pay1 chan
  simp only [matmul]
  rw [Ideal.matmul_constant_zero_apply,
    ← Equiv.sum_comp (contrEquiv1 dot_S512x4096_S4096x3_S512x3_1_0_0_1_n_n 4096 rfl rfl).symm]
  refine Finset.sum_congr rfl fun n _ => ?_
  have hk := contrEquiv1_symm_val dot_S512x4096_S4096x3_S512x3_1_0_0_1_n_n 4096 rfl rfl n
  have el : dot_S512x4096_S4096x3_S512x3_1_0_0_1_n_n.lhsIdx (ix2 p q) ((contrEquiv1 dot_S512x4096_S4096x3_S512x3_1_0_0_1_n_n 4096 rfl rfl).symm n) = ix2 p n := funext fun a => Fin.ext (by
    match a with
    | ⟨0, _⟩ => exact lhs_axis0 _ _
    | ⟨1, _⟩ => exact (lhs_axis1 _ _).trans hk)
  have er : dot_S512x4096_S4096x3_S512x3_1_0_0_1_n_n.rhsIdx (ix2 p q) ((contrEquiv1 dot_S512x4096_S4096x3_S512x3_1_0_0_1_n_n 4096 rfl rfl).symm n) = ix2 n q := funext fun a => Fin.ext (by
    match a with
    | ⟨0, _⟩ => exact (rhs_axis0 _ _).trans hk
    | ⟨1, _⟩ => exact rhs_axis1 _ _)
  rw [el, er]
  simp only [shapeCast_self]
  refine congrArg (· * E (ix2 n q)) ?_
  unfold weight
  simp only [truncf_apply, exp_at, mulf_apply, addf_apply, subf_apply, broadcast_apply, shapeCast_self, col_to_slab, row_to_slab]
  rfl

/-- The density column: column 0 of the product. -/
theorem pay2_apply (g0 g1 : Vec Ideal S512x1 .f32) (x0 x1 xsq : Vec Ideal S1x4096 .f32) (E : Vec Ideal S4096x3 .bf16)
    (p : Fin 512) :
    k0_pay2 (F := Ideal) g0 g1 x0 x1 xsq E (ix2 p (0 : Fin 1)) = chan g0 g1 x0 x1 xsq E p (0 : Fin 3) := by
  unfold k0_pay2
  rw [first_col, pay1_apply]

/-- The normalised channels: columns 1 and 2 of the product over the density. -/
theorem pay3_apply (g0 g1 : Vec Ideal S512x1 .f32) (x0 x1 xsq : Vec Ideal S1x4096 .f32) (E : Vec Ideal S4096x3 .bf16)
    (p : Fin 512) (j : Fin 2) :
    k0_pay3 (F := Ideal) g0 g1 x0 x1 xsq E (ix2 p j)
      = Ideal.div (chan g0 g1 x0 x1 xsq E p (⟨1 + j.val, by have := j.isLt; omega⟩ : Fin 3)) (chan g0 g1 x0 x1 xsq E p (0 : Fin 3)) := by
  unfold k0_pay3
  rw [divf_apply, last_cols, col_to_pair, pay1_apply, pay2_apply]

end Cert.KernelIdeal.BodyValue

end
-- ==== Proof.KBlock.lean ====
/-
  What the kernel body leaves in the output block, as one function of the five input blocks.

  The body stores the density into column 0 of the [512, 3] output block and the two normalised channels into
  columns 1 and 2: two rectangles that tile the block. Read back, entry (p, q) of the block is channel q of block
  row p — the density itself for q = 0, the channel over the density otherwise — where the two grid coordinates of
  row p are entries (p, 0) and (p, 1) of the grid block.
-/
import proofs.«178940_j65755949301956_1_alg».proof.Proof.Gen.KernelIdeal.Frame
import proofs.«178940_j65755949301956_1_alg».proof.Proof.KPayload
import Idealize.ShloMosaic.Lib.Pipeline.Value
import Idealize.ShloMosaic.Lib.Tactic

noncomputable section

open scoped BigOperators

namespace Cert.KernelIdeal.BlockValue

open Cert.KernelIdeal Cert.KernelIdeal.Gen Cert.KernelIdeal.BodyValue
open Idealize.ShloMosaic Idealize.ShloMosaic.TcCoe Idealize.ShloMosaic.ValueIdx Idealize.SL.Sem

/-! ## The block's function -/

/-- The radial weight of context point `n` at block row `p`, from the grid block `B` and the three context rows. -/
def bweight (B : Vec Ideal S512x2 .f32) (x0 x1 xsq : Vec Ideal S1x4096 .f32) (p : Fin 512) (n : Fin 4096) : EReal :=
  Ideal.exp (Ideal.ofBits .f32 0xBF000000#32
    * (((B (ix2 p (0 : Fin 2)) * B (ix2 p (0 : Fin 2)) + B (ix2 p (1 : Fin 2)) * B (ix2 p (1 : Fin 2))) + xsq (ix2 (0 : Fin 1) n))
        - Ideal.ofBits .f32 0x40000000#32
            * (B (ix2 p (0 : Fin 2)) * x0 (ix2 (0 : Fin 1) n) + B (ix2 p (1 : Fin 2)) * x1 (ix2 (0 : Fin 1) n))))

/-- Channel `q` of the unnormalised features at block row `p`. -/
def bchan (B : Vec Ideal S512x2 .f32) (x0 x1 xsq : Vec Ideal S1x4096 .f32) (E : Vec Ideal S4096x3 .bf16)
    (p : Fin 512) (q : Fin 3) : EReal :=
  ∑ n : Fin 4096, bweight B x0 x1 xsq p n * E (ix2 n q)

/-- Entry (p, q) of the output block: the density for `q = 0`, the channel over the density otherwise. -/
def brow (B : Vec Ideal S512x2 .f32) (x0 x1 xsq : Vec Ideal S1x4096 .f32) (E : Vec Ideal S4096x3 .bf16)
    (p : Fin 512) (q : Fin 3) : EReal :=
  if q.val = 0 then bchan B x0 x1 xsq E p q else Ideal.div (bchan B x0 x1 xsq E p q) (bchan B x0 x1 xsq E p (0 : Fin 3))

/-- The output block as an array. -/
def bmap (B : Vec Ideal S512x2 .f32) (x0 x1 xsq : Vec Ideal S1x4096 .f32) (E : Vec Ideal S4096x3 .bf16) :
    Vec Ideal S512x3 .f32 :=
  fun y => brow B x0 x1 xsq E ⟨(y 0).val, idx2_lt0 y⟩ ⟨(y 1).val, idx2_lt1 y⟩

theorem bmap_ix2 (B : Vec Ideal S512x2 .f32) (x0 x1 xsq : Vec Ideal S1x4096 .f32) (E : Vec Ideal S4096x3 .bf16)
    (p : Fin 512) (q : Fin 3) : bmap B x0 x1 xsq E (ix2 p q) = brow B x0 x1 xsq E p q := rfl

/-- When block row `p` of the grid block is row `r` of the grid, the three context rows are the two coordinates and the
    squared norms of the context points, and `E` is the expanded targets, entry (p, q) of the output block is entry (r, q)
    of the feature map. -/
theorem brow_eq_fm (B : Vec Ideal S512x2 .f32) (x0 x1 xsq : Vec Ideal S1x4096 .f32) (E : Vec Ideal S4096x3 .bf16)
    (X Y : FVec Ideal Cert.SetConv.SX .f32) (G : FVec Ideal Cert.SetConv.SG .f32) (r : Fin 65536) (p : Fin 512)
    (hB : ∀ j : Fin 2, B (ix2 p j) = G (ix2 r j))
    (h0 : ∀ n : Fin 4096, x0 (ix2 (0 : Fin 1) n) = X (ix2 n (0 : Fin 2)))
    (h1 : ∀ n : Fin 4096, x1 (ix2 (0 : Fin 1) n) = X (ix2 n (1 : Fin 2)))
    (hs : ∀ n : Fin 4096, xsq (ix2 (0 : Fin 1) n) = Ideal.ofBits .f32 0x00000000#32 + ∑ k : Fin 2, X (ix2 n k) * X (ix2 n k))
    (hE : ∀ (n : Fin 4096) (q : Fin 3), E (ix2 n q) = Cert.SetConv.ey Y n q) (q : Fin 3) :
    brow B x0 x1 xsq E p q = Cert.SetConv.fm X Y G r q := by
  have hc : ∀ q' : Fin 3, bchan B x0 x1 xsq E p q' = Cert.SetConv.feat X Y G r q' := fun q' => by
    unfold bchan Cert.SetConv.feat
    refine Finset.sum_congr rfl fun n _ => ?_
    unfold bweight Cert.SetConv.gram Cert.SetConv.sq
    rw [hB 0, hB 1, h0, h1, hs, hE]
  unfold brow Cert.SetConv.fm
  rw [hc, hc]

/-! ## The two column loads of the grid block -/

/-- The load of column 0 of the grid block reads entry (p, 0). -/
theorem ld_col0 (B : Vec Ideal S512x2 .f32) (inb : ∀ a, (![0, 0] : Fin 2 → Nat) a + (![512, 1] : Fin 2 → Nat) a ≤ S512x2.size a) (p : Fin 512) :
    View.ld B (Rect.unit (s := S512x2) ![0, 0] ![512, 1] inb) (ix2 p (0 : Fin 1)) = B (ix2 p (0 : Fin 2)) :=
  congrArg B (funext fun a => Fin.ext (by
    match a with
    | ⟨0, _⟩ => show 0 + 1 * p.val = p.val; omega
    | ⟨1, _⟩ => show 0 + 1 * 0 = 0; rfl))

/-- The load of column 1 of the grid block reads entry (p, 1). -/
theorem ld_col1 (B : Vec Ideal S512x2 .f32) (inb : ∀ a, (![0, 1] : Fin 2 → Nat) a + (![512, 1] : Fin 2 → Nat) a ≤ S512x2.size a) (p : Fin 512) :
    View.ld B (Rect.unit (s := S512x2) ![0, 1] ![512, 1] inb) (ix2 p (0 : Fin 1)) = B (ix2 p (1 : Fin 2)) :=
  congrArg B (funext fun a => Fin.ext (by
    match a with
    | ⟨0, _⟩ => show 0 + 1 * p.val = p.val; omega
    | ⟨1, _⟩ => show 1 + 1 * 0 = 1; rfl))

/-- The body's weight depends on its two column vectors only through their entries at row `p`. -/
theorem weight_eq_bweight (B : Vec Ideal S512x2 .f32) (g0 g1 : Vec Ideal S512x1 .f32) (x0 x1 xsq : Vec Ideal S1x4096 .f32)
    (p : Fin 512) (n : Fin 4096) (h0 : g0 (ix2 p (0 : Fin 1)) = B (ix2 p (0 : Fin 2))) (h1 : g1 (ix2 p (0 : Fin 1)) = B (ix2 p (1 : Fin 2))) :
    weight g0 g1 x0 x1 xsq p n = bweight B x0 x1 xsq p n := by
  unfold weight bweight
  rw [h0, h1]

/-- So the body's channel over the two loaded columns is the block's channel. -/
theorem chan_of_loads (B : Vec Ideal S512x2 .f32) (x0 x1 xsq : Vec Ideal S1x4096 .f32) (E : Vec Ideal S4096x3 .bf16)
    (inb0 : ∀ a, (![0, 0] : Fin 2 → Nat) a + (![512, 1] : Fin 2 → Nat) a ≤ S512x2.size a)
    (inb1 : ∀ a, (![0, 1] : Fin 2 → Nat) a + (![512, 1] : Fin 2 → Nat) a ≤ S512x2.size a) (p : Fin 512) (q : Fin 3) :
    chan (View.ld B (Rect.unit (s := S512x2) ![0, 0] ![512, 1] inb0)) (View.ld B (Rect.unit (s := S512x2) ![0, 1] ![512, 1] inb1))
        x0 x1 xsq E p q
      = bchan B x0 x1 xsq E p q := by
  unfold chan bchan
  exact Finset.sum_congr rfl fun n _ => by rw [weight_eq_bweight B _ _ x0 x1 xsq p n (ld_col0 B inb0 p) (ld_col1 B inb1 p)]

/-! ## The two stored pieces restrict the block's function -/

theorem hz : (![0, 0] : Fin 2 → Nat) = fun _ => 0 := funext fun a => by fin_cases a <;> rfl

/-- The density piece (column 0) at its local entry. -/
theorem density_piece (B : Vec Ideal S512x2 .f32) (x0 x1 xsq : Vec Ideal S1x4096 .f32) (E : Vec Ideal S4096x3 .bf16)
    (inb0 : ∀ a, (![0, 0] : Fin 2 → Nat) a + (![512, 1] : Fin 2 → Nat) a ≤ S512x2.size a)
    (inb1 : ∀ a, (![0, 1] : Fin 2 → Nat) a + (![512, 1] : Fin 2 → Nat) a ≤ S512x2.size a)
    (inbo : ∀ a, (![0, 0] : Fin 2 → Nat) a + (![512, 1] : Fin 2 → Nat) a ≤ S512x3.size a) (x : S512x1.Idx) :
    k0_pay2 (F := Ideal) (View.ld B (Rect.unit (s := S512x2) ![0, 0] ![512, 1] inb0)) (View.ld B (Rect.unit (s := S512x2) ![0, 1] ![512, 1] inb1)) x0 x1 xsq E x
      = bmap B x0 x1 xsq E ((Rect.unit (s := S512x3) ![0, 0] ![512, 1] inbo).emb x) := by
  obtain ⟨p, z, rfl⟩ : ∃ (p : Fin 512) (z : Fin 1), x = ix2 p z := ⟨x 0, x 1, eq_ix2 x⟩
  obtain rfl : z = 0 := Subsingleton.elim _ _
  rw [pay2_apply, chan_of_loads]
  have e : (Rect.unit (s := S512x3) ![0, 0] ![512, 1] inbo).emb (ix2 p (0 : Fin 1)) = ix2 p (0 : Fin 3) :=
    funext fun a => Fin.ext (by
      match a with
      | ⟨0, _⟩ => show 0 + 1 * p.val = p.val; omega
      | ⟨1, _⟩ => show 0 + 1 * 0 = 0; rfl)
  rw [e, bmap_ix2]
  unfold brow
  exact (if_pos rfl).symm

/-- The normalised piece (columns 1 and 2) at its local entry. -/
theorem normalised_piece (B : Vec Ideal S512x2 .f32) (x0 x1 xsq : Vec Ideal S1x4096 .f32) (E : Vec Ideal S4096x3 .bf16)
    (inb0 : ∀ a, (![0, 0] : Fin 2 → Nat) a + (![512, 1] : Fin 2 → Nat) a ≤ S512x2.size a)
    (inb1 : ∀ a, (![0, 1] : Fin 2 → Nat) a + (![512, 1] : Fin 2 → Nat) a ≤ S512x2.size a)
    (inbo : ∀ a, (![0, 1] : Fin 2 → Nat) a + (![512, 2] : Fin 2 → Nat) a ≤ S512x3.size a) (x : S512x2.Idx) :
    k0_pay3 (F := Ideal) (View.ld B (Rect.unit (s := S512x2) ![0, 0] ![512, 1] inb0)) (View.ld B (Rect.unit (s := S512x2) ![0, 1] ![512, 1] inb1)) x0 x1 xsq E x
      = bmap B x0 x1 xsq E ((Rect.unit (s := S512x3) ![0, 1] ![512, 2] inbo).emb x) := by
  obtain ⟨p, j, rfl⟩ : ∃ (p : Fin 512) (j : Fin 2), x = ix2 p j := ⟨x 0, x 1, eq_ix2 x⟩
  rw [pay3_apply, chan_of_loads, chan_of_loads]
  have e : (Rect.unit (s := S512x3) ![0, 1] ![512, 2] inbo).emb (ix2 p j) = ix2 p (⟨1 + j.val, by have := j.isLt; omega⟩ : Fin 3) :=
    funext fun a => Fin.ext (by
      match a with
      | ⟨0, _⟩ => show 0 + 1 * p.val = p.val; omega
      | ⟨1, _⟩ => show 1 + 1 * j.val = 1 + j.val; omega)
  rw [e, bmap_ix2]
  unfold brow
  rw [if_neg (by show ¬(1 + j.val = 0); omega)]

/-! ## The output block after the body -/

/-- On any staging memrefs, from input blocks `B`, `x0`, `x1`, `xsq`, `E`, the body leaves the block's function in the
    output's staging buffer: its two stores tile the block and each store's payload restricts that function. -/
theorem out_eq (c : Dev nD) (i : grid0.Coords) (arg1 : Memref sig .tc .vmem S512x2 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x3 .bf16) (harg5 : arg5.IsWhole) (arg6 : Memref sig .tc .vmem S512x3 .f32) (harg6 : arg6.IsWhole)
    (B : Vec Ideal S512x2 .f32) (x0 x1 xsq : Vec Ideal S1x4096 .f32) (E : Vec Ideal S4096x3 .bf16) :
    out0_A_5 (F := Ideal) c i arg1 harg1 arg2 harg2 arg3 harg3 arg4 harg4 arg5 harg5 arg6 harg6 B x0 x1 xsq E = bmap B x0 x1 xsq E := by
  unfold out0_A_5
  rw [View.read_writes_eq_canon _ _ _ (cover0_A_5 c i arg1 harg1 arg2 harg2 arg3 harg3 arg4 harg4 arg5 harg5 arg6 harg6 B x0 x1 xsq E)]
  unfold kernelRun0_A
  dsimp only
  sl_unfold_words
  simp only [View.readAt_eq_ld, harg1.read_unread, harg2.read_unread, harg3.read_unread, harg4.read_unread, harg5.read_unread,
    View.ld_unit_zero (S := S1x4096) hz, View.ld_unit_zero (S := S4096x3) hz]
  funext y
  refine View.canon_apply_of_pieces (bmap B x0 x1 xsq E) _ ?_ y ?_
  · intro pc hpc x
    simp only [List.mem_cons, List.mem_nil_iff, or_false] at hpc
    rcases hpc with rfl | rfl
    · exact normalised_piece B x0 x1 xsq E Facts₀.inb_S512x2_S512x1_0_0 Facts₀.inb_S512x2_S512x1_0_1 Facts₀.inb_S512x3_S512x2_0_1 x
    · exact density_piece B x0 x1 xsq E Facts₀.inb_S512x2_S512x1_0_0 Facts₀.inb_S512x2_S512x1_0_1 Facts₀.inb_S512x3_S512x1_0_0 x
  · by_cases h0 : (y 1).val = 0
    · refine ⟨_, List.mem_cons_of_mem _ (List.mem_cons_self ..), ?_⟩
      show y ∈ (Rect.unit (s := S512x3) ![0, 0] ![512, 1] Facts₀.inb_S512x3_S512x1_0_0).set
      refine Rect.mem_set_unit.mpr fun a => ?_
      match a with
      | ⟨0, _⟩ => exact ⟨Nat.zero_le _, by show (y 0).val < 0 + 512; have := idx2_lt0 y; omega⟩
      | ⟨1, _⟩ => exact ⟨Nat.zero_le _, by show (y 1).val < 0 + 1; omega⟩
    · refine ⟨_, List.mem_cons_self .., ?_⟩
      show y ∈ (Rect.unit (s := S512x3) ![0, 1] ![512, 2] Facts₀.inb_S512x3_S512x2_0_1).set
      refine Rect.mem_set_unit.mpr fun a => ?_
      match a with
      | ⟨0, _⟩ => exact ⟨Nat.zero_le _, by show (y 0).val < 0 + 512; have := idx2_lt0 y; omega⟩
      | ⟨1, _⟩ => exact ⟨by show 1 ≤ (y 1).val; omega, by show (y 1).val < 1 + 2; have := idx2_lt1 y; omega⟩

end Cert.KernelIdeal.BlockValue

end
-- ==== Proof.KArrays.lean ====
/-
  What each input window's block holds at a grid point, in terms of the three argument arrays
  X = main_arg0 (4096 context points of two coordinates), Y = main_arg1 (their 4096 targets of two channels) and
  G = main_arg2 (65536 grid points of two coordinates).

  The grid has 128 points. At point t
    * window 0 reads rows 512·t … 512·t + 511 of G: its entry (p, j) is G[512·t + p, j];
    * windows 1 and 2 read, whole, the rows x₀ = X[·, 0] and x₁ = X[·, 1] laid out as 1 × 4096: entry (0, n) is
      X[n, 0], respectively X[n, 1];
    * window 3 reads, whole, the row of squared norms: entry (0, n) is 0 + Σₖ X[n, k]·X[n, k];
    * window 4 reads, whole, the expanded targets [1 | Y] in the narrower format: entry (n, q) is 1 for q = 0 and
      Y[n, q − 1] otherwise. On the extended reals a change of format is the identity.

  Each statement has two halves. A block's coordinate along an axis is (block index) × (block size) + (coordinate
  inside the block); the block indices are decided once over the grid, so the block entry is the array entry at the
  coordinates above. The arrays of windows 1 to 4 are written by the operations that run before the grid, so what
  they hold is those operations' term over X and Y, read at an index one operation at a time: a row broadcast reads
  its vector at the column, a flattening of a 4096 × 1 array keeps the row-major position, a slice shifts by its
  offsets, a sum over the second axis is the initial value plus the sum of the two entries of the row, and a
  two-piece concatenation along the second axis reads the first piece at column 0 and the second at the column less
  one.
-/
import proofs.«178940_j65755949301956_1_alg».proof.Proof.Gen.KernelIdeal.Frame
import proofs.«178940_j65755949301956_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.Arrays

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The block indices, decided over the 128 grid points -/

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, _)
/-- Windows 1 to 4 sit at block index `(0, 0)` at every point: each block is its whole array. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-! ## Window 0: the grid's rows 512·t … 512·t + 511 -/

/-- Row `p` of block `t` is a row of the grid: `512·t + p < 128·512`. -/
theorem row_lt (t : Fin cfg0.N) (p : Fin 512) : 512 * t.val + p.val < 65536 := by
  have h : t.val < 128 := lt_of_lt_of_eq t.isLt N_0
  have := p.isLt; omega

/-- Entry `(p, j)` of window 0's block at point `t` is `G[512·t + p, j]`: no operation before the grid writes `G`, and
    the block's row coordinate is `t · 512 + p`, its column coordinate `0 · 2 + j`. -/
theorem grid_block (c : Dev nD) (t : Fin cfg0.N) (p : Fin 512) (j : Fin 2) :
    (iblk m c 0 t : Vec Ideal S512x2 .f32) (ix2 p j)
      = m ((c : Thread nD τ).loc main_arg2) (ix2 (⟨512 * t.val + p.val, row_lt t p⟩ : Fin 65536) j) := by
  unfold iblk
  rw [View.read_apply]
  show V m c main_arg2 _ = _
  rw [V_main_arg2]
  refine congrArg _ (funext fun a => Fin.ext ?_)
  match a with
  | ⟨0, _⟩ => show win0_0.index t 0 * 512 + 1 * p.val = 512 * t.val + p.val; rw [(idx0 t).1]; omega
  | ⟨1, _⟩ => show win0_0.index t 1 * 2 + 1 * j.val = j.val; rw [(idx0 t).2]; omega

/-! ## The operations before the grid, read at an index -/

/-- A vector of 4096 entries laid out as the one row of a 1 × 4096 array: entry `(0, n)` is the vector's entry `n`. -/
theorem row_of_vec {α : Type} (v : S4096.Idx → α) (n : Fin 4096) :
    broadcastInDim S1x4096 ![1] bcast_S4096_S1x4096_1 v (ix2 (0 : Fin 1) n) = v (ix1 n) :=
  broadcastInDim_apply _ bcast_S4096_S1x4096_1 v (ix2 (0 : Fin 1) n) (ix1 n) (fun a => match a with
    | ⟨0, _⟩ => by show n.val = if (4096 : Nat) = 1 then 0 else n.val; rw [if_neg (by decide)])

/-- Column `k` of a 4096 × 2 array, cut out as a 4096 × 1 array and flattened: entry `n` is the array's entry `(n, k)`.
    The flattening keeps the row-major position, `n · 1 + 0 = n`; the slice adds its offsets `(0, k)`. -/
theorem column_apply {α : Type} (X : S4096x2.Idx → α) (k : Fin 2) (off : Fin 2 → Nat) (hoff : off = ![0, k.val])
    (h : S4096x2.Slices off S4096x1) (n : Fin 4096) :
    shapeCast S4096 (extractStridedSlice S4096x1 off X h) shapeCasts_S4096x1_S4096 (ix1 n) = X (ix2 n k) := by
  subst hoff
  refine (shapeCast_apply _ shapeCasts_S4096x1_S4096 (ix1 n) (ix2 n (0 : Fin 1)) ?_).trans ?_
  · rw [Shape.rowMajor_val_two, Shape.rowMajor_val_one]
    show n.val * 1 + 0 = n.val
    omega
  · exact extractStridedSlice_apply _ X h (ix2 n (0 : Fin 1)) (ix2 n k) (fun a => match a with
      | ⟨0, _⟩ => by show n.val = 0 + n.val; omega
      | ⟨1, _⟩ => by show k.val = k.val + 0; omega)

/-- The sum over the second axis of a 4096 × 2 array from an initial value: entry `n` is the initial value plus the
    two entries of row `n`. -/
theorem rowsum_apply (X : S4096x2.Idx → EReal) (z : S_.Idx → EReal) (n : Fin 4096) :
    Host.reduceAdd (F := Ideal) (φ := .f32) X z reducesTo_S4096x2_S4096_d1 h_S_ (ix1 n)
      = z (Shape.Idx.first h_S_) + ∑ k : Fin 2, X (ix2 n k) := by
  simp only [Host.reduceAdd, Ideal.hostReduceAdd_def]
  rw [Ideal.hostReduceAdd_single reducesTo_S4096x2_S4096_d1 (by decide)]
  refine congrArg (_ + ·) (Finset.sum_congr rfl fun k _ => ?_)
  exact congrArg X (funext fun a => Fin.ext (by match a with | ⟨0, _⟩ => rfl | ⟨1, _⟩ => rfl))

/-- The column of ones joined to a 4096 × 2 array along the second axis is the expanded targets: column 0 falls in the
    first piece, the constant 1; column `q ≥ 1` falls in the second piece at column `q − 1`. -/
theorem ones_y_apply (Y : S4096x2.Idx → EReal) (n : Fin 4096) (q : Fin 3) :
    concatenate S4096x3 1
        [⟨S4096x1, broadcastInDim S4096x1 ![] bcast_S_S4096x1 (constant (F := Ideal) S_ .f32 0x3F800000#32)⟩, ⟨S4096x2, Y⟩]
        concatenates_S4096x1_S4096x2_S4096x3_d1 (ix2 n q)
      = Cert.SetConv.ey Y n q := by
  unfold Cert.SetConv.ey
  by_cases hq : q.val = 0
  · rw [if_pos hq]
    refine (concatenate_pair_apply_left (t := S4096x3) (s₁ := S4096x1) (s₂ := S4096x2) (1 : Fin 2) _ Y
      concatenates_S4096x1_S4096x2_S4096x3_d1 (ix2 n q) rfl
      (ix2 n (0 : Fin 1)) (fun b => match b with
        | ⟨0, _⟩ => rfl
        | ⟨1, _⟩ => by show 0 = q.val; omega)).trans ?_
    exact broadcastInDim_apply _ bcast_S_S4096x1 _ _ ix0 (fun a => a.elim0)
  · rw [if_neg hq]
    exact concatenate_pair_apply_right (t := S4096x3) (s₁ := S4096x1) (s₂ := S4096x2) (1 : Fin 2) _ Y
      concatenates_S4096x1_S4096x2_S4096x3_d1 (ix2 n q) rfl rfl
      (ix2 n (⟨q.val - 1, by have := q.isLt; omega⟩ : Fin 2))
      (fun b => match b with
        | ⟨0, _⟩ => fun _ => rfl
        | ⟨1, _⟩ => fun hb => absurd rfl hb)
      (by show (q.val - 1) + 1 = q.val; omega)

/-! ## Windows 1 and 2: the two coordinate rows of the context points -/

/-- What window 1's array holds when the grid starts: column 0 of `X`, flattened, as one row. -/
theorem V_x0 (c : Dev nD) : (V m c main_v2 : S1x4096.Idx → EReal)
    = broadcastInDim S1x4096 ![1] bcast_S4096_S1x4096_1
        (shapeCast S4096 (extractStridedSlice S4096x1 ![0, 0] (m ((c : Thread nD τ).loc main_arg0)) slices_S4096x2_S4096x1_0_0)
          shapeCasts_S4096x1_S4096) := by
  show StableHlo.after hostOps0 (fun b => m (c, b)) (Proc.devRef .tc main_v2) = _
  after_results
  rfl

/-- Entry `(0, n)` of window 1's block at any point is `X[n, 0]`. -/
theorem x0_block (c : Dev nD) (t : Fin cfg0.N) (n : Fin 4096) :
    (iblk m c 1 t : Vec Ideal S1x4096 .f32) (ix2 (0 : Fin 1) n) = m ((c : Thread nD τ).loc main_arg0) (ix2 n (0 : Fin 2)) := by
  unfold iblk
  rw [View.read_apply]
  have hi : ((cfg0.win 1).blk t).view.emb (ix2 (0 : Fin 1) n) = (ix2 (0 : Fin 1) n : S1x4096.Idx) :=
    funext fun a => Fin.ext (by
      match a with
      | ⟨0, _⟩ => show win0_1.index t 0 * 1 + 1 * 0 = 0; rw [(idx1 t).1]
      | ⟨1, _⟩ => show win0_1.index t 1 * 4096 + 1 * n.val = n.val; rw [(idx1 t).2]; omega)
  refine (congrArg (V m c main_v2) hi).trans ?_
  refine (congrFun (V_x0 m c) _).trans ?_
  refine (row_of_vec _ n).trans ?_
  exact column_apply _ (0 : Fin 2) _ rfl _ n

/-- What window 2's array holds when the grid starts: column 1 of `X`, flattened, as one row. -/
theorem V_x1 (c : Dev nD) : (V m c main_v5 : S1x4096.Idx → EReal)
    = broadcastInDim S1x4096 ![1] bcast_S4096_S1x4096_1
        (shapeCast S4096 (extractStridedSlice S4096x1 ![0, 1] (m ((c : Thread nD τ).loc main_arg0)) slices_S4096x2_S4096x1_0_1)
          shapeCasts_S4096x1_S4096) := by
  show StableHlo.after hostOps0 (fun b => m (c, b)) (Proc.devRef .tc main_v5) = _
  after_results
  rfl

/-- Entry `(0, n)` of window 2's block at any point is `X[n, 1]`. -/
theorem x1_block (c : Dev nD) (t : Fin cfg0.N) (n : Fin 4096) :
    (iblk m c 2 t : Vec Ideal S1x4096 .f32) (ix2 (0 : Fin 1) n) = m ((c : Thread nD τ).loc main_arg0) (ix2 n (1 : Fin 2)) := by
  unfold iblk
  rw [View.read_apply]
  have hi : ((cfg0.win 2).blk t).view.emb (ix2 (0 : Fin 1) n) = (ix2 (0 : Fin 1) n : S1x4096.Idx) :=
    funext fun a => Fin.ext (by
      match a with
      | ⟨0, _⟩ => show win0_2.index t 0 * 1 + 1 * 0 = 0; rw [(idx2 t).1]
      | ⟨1, _⟩ => show win0_2.index t 1 * 4096 + 1 * n.val = n.val; rw [(idx2 t).2]; omega)
  refine (congrArg (V m c main_v5) hi).trans ?_
  refine (congrFun (V_x1 m c) _).trans ?_
  refine (row_of_vec _ n).trans ?_
  exact column_apply _ (1 : Fin 2) _ rfl _ n

/-! ## Window 3: the squared norms of the context points -/

/-- What window 3's array holds when the grid starts: the sums over the second axis of `X · X` from the constant 0, as
    one row. -/
theorem V_xsq (c : Dev nD) : (V m c main_v8 : S1x4096.Idx → EReal)
    = broadcastInDim S1x4096 ![1] bcast_S4096_S1x4096_1
        (Host.reduceAdd (F := Ideal) (φ := .f32)
          (mulf (F := Ideal) (m ((c : Thread nD τ).loc main_arg0)) (m ((c : Thread nD τ).loc main_arg0)))
          (constant (F := Ideal) S_ .f32 0x00000000#32) reducesTo_S4096x2_S4096_d1 h_S_) := by
  show StableHlo.after hostOps0 (fun b => m (c, b)) (Proc.devRef .tc main_v8) = _
  after_results

/-- Entry `(0, n)` of window 3's block at any point is `0 + Σₖ X[n, k] · X[n, k]`, the product the extended reals'. -/
theorem xsq_block (c : Dev nD) (t : Fin cfg0.N) (n : Fin 4096) :
    (iblk m c 3 t : Vec Ideal S1x4096 .f32) (ix2 (0 : Fin 1) n)
      = Ideal.ofBits .f32 0x00000000#32 + ∑ k : Fin 2, HMul.hMul (α := EReal) (β := EReal)
            (m ((c : Thread nD τ).loc main_arg0) (ix2 n k)) (m ((c : Thread nD τ).loc main_arg0) (ix2 n k)) := by
  unfold iblk
  rw [View.read_apply]
  have hi : ((cfg0.win 3).blk t).view.emb (ix2 (0 : Fin 1) n) = (ix2 (0 : Fin 1) n : S1x4096.Idx) :=
    funext fun a => Fin.ext (by
      match a with
      | ⟨0, _⟩ => show win0_3.index t 0 * 1 + 1 * 0 = 0; rw [(idx3 t).1]
      | ⟨1, _⟩ => show win0_3.index t 1 * 4096 + 1 * n.val = n.val; rw [(idx3 t).2]; omega)
  refine (congrArg (V m c main_v8) hi).trans ?_
  refine (congrFun (V_xsq m c) _).trans ?_
  refine (row_of_vec _ n).trans ?_
  refine (rowsum_apply _ _ n).trans ?_
  rfl

/-! ## Window 4: the expanded targets -/

/-- What window 4's array holds when the grid starts: the column of ones joined to `Y`, in the narrower format. -/
theorem V_ey (c : Dev nD) : (V m c main_v11 : S4096x3.Idx → EReal)
    = truncf (F := Ideal) .bf16
        (concatenate S4096x3 1
          [⟨S4096x1, broadcastInDim S4096x1 ![] bcast_S_S4096x1 (constant (F := Ideal) S_ .f32 0x3F800000#32)⟩,
           ⟨S4096x2, m ((c : Thread nD τ).loc main_arg1)⟩]
          concatenates_S4096x1_S4096x2_S4096x3_d1) bitsLt_bf16_f32 := by
  show StableHlo.after hostOps0 (fun b => m (c, b)) (Proc.devRef .tc main_v11) = _
  after_results

/-- Entry `(n, q)` of window 4's block at any point is the expanded target `[1 | Y][n, q]`: the narrowing is the
    identity on the extended reals. -/
theorem ey_block (c : Dev nD) (t : Fin cfg0.N) (n : Fin 4096) (q : Fin 3) :
    (iblk m c 4 t : Vec Ideal S4096x3 .bf16) (ix2 n q) = Cert.SetConv.ey (m ((c : Thread nD τ).loc main_arg1)) n q := by
  unfold iblk
  rw [View.read_apply]
  have hi : ((cfg0.win 4).blk t).view.emb (ix2 n q) = (ix2 n q : S4096x3.Idx) :=
    funext fun a => Fin.ext (by
      match a with
      | ⟨0, _⟩ => show win0_4.index t 0 * 4096 + 1 * n.val = n.val; rw [(idx4 t).1]; omega
      | ⟨1, _⟩ => show win0_4.index t 1 * 3 + 1 * q.val = q.val; rw [(idx4 t).2]; omega)
  refine (congrArg (V m c main_v11) hi).trans ?_
  refine (congrFun (V_ey m c) _).trans ?_
  exact ones_y_apply _ n q

end Cert.KernelIdeal.Arrays

end
-- ==== Proof.KTail.lean ====
/-
  The three host operations after the kernel region: the [65536, 3] feature map is reshaped to [256, 256, 3], its axes
  are reversed to [3, 256, 256], and a leading unit axis is added. Whatever array the region leaves in its output
  window, the program's result is that chain applied to it.
-/
import proofs.«178940_j65755949301956_1_alg».proof.Proof.Gen.KernelIdeal.Frame
import Idealize.ShloMosaic.Lib.StableHlo.Run

noncomputable section

namespace Cert.KernelIdeal.TailValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The re-layout of a [65536, 3] array into the program's [1, 3, 256, 256] result. -/
def relayout (Z : FVec F S65536x3 .f32) : FVec F S1x3x256x256 .f32 :=
  broadcastInDim S1x3x256x256 ![1, 2, 3] Facts₀.bcast_S3x256x256_S1x3x256x256_1_2_3
    (transpose S3x256x256 [2, 1, 0] (shapeCast S256x256x3 Z Facts₀.shapeCasts_S65536x3_S256x256x3)
      Facts₀.transposes_S256x256x3_S3x256x256_2_1_0)

/-- If the region's output array ends at `Z`, the program's result buffer ends at the re-layout of `Z`. -/
theorem result_of_final (c : Dev nD) (Z : FVec F S65536x3 .f32) (hfin : (dats m 0 c).arrAt 5 cfg0.N = Z) :
    Pipeline.afterTail₀ cfgs (dats m) 0 (V0 m) [hostOps1] c main_v15 = relayout Z := by
  unfold Pipeline.afterTail₀
  show StableHlo.after hostOps1 _ (Proc.devRef .tc main_v15) = _
  after_results
  have h5 : Pipeline.withArrays (cfgs 0).spec c (V0 m c) (fun w => (dats m 0 c).arrAt w (cfgs 0).N) (Proc.devRef .tc main_v12) = Z :=
    (Pipeline.withArrays_arr spec0 launch0.win.arr_inj c _ _ 5).trans hfin
  rw [h5]
  unfold relayout
  rfl

end Cert.KernelIdeal.TailValue

end
-- ==== Proof.KFinal.lean ====
/-
  The kernel's run, read: its result buffer ends at the re-layout of the feature map.

  At grid point t the output window's block holds rows 512 t … 512 t + 511 of the feature map: the grid block holds
  those rows of the grid, the three context rows and the expanded targets are whole arrays read at every point, and
  the body's block function is then the feature map's rows. The 128 blocks tile the [65536, 3] array (row r lies in
  block r / 512), so after the region the array is the feature map, and the three host operations after it re-lay it.
-/
import proofs.«178940_j65755949301956_1_alg».proof.Proof.KBlock
import proofs.«178940_j65755949301956_1_alg».proof.Proof.KArrays
import proofs.«178940_j65755949301956_1_alg».proof.Proof.KTail
import Idealize.ShloMosaic.Lib.Pipeline.Value

noncomputable section

namespace Cert.KernelIdeal.RunValue

open Cert.KernelIdeal Cert.KernelIdeal.Gen Cert.KernelIdeal.BlockValue Cert.KernelIdeal.Arrays Cert.KernelIdeal.TailValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The feature map of the launch contents of the three arguments, as contents of the region's output array. -/
abbrev featureMap (c : Dev nD) : Buf (Elt Ideal) ((c : Thread nD τ).loc main_v12) :=
  Cert.SetConv.fmap (m ((c : Thread nD τ).loc main_arg0)) (m ((c : Thread nD τ).loc main_arg1)) (m ((c : Thread nD τ).loc main_arg2))

/-- The output window's block index at point `t` is (t, 0). -/
theorem out_index : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- What point `t` writes back is block `t` of the feature map. -/
theorem flushed_eq (c : Dev nD) (t : Fin cfg0.N) :
    (dats m 0 c).flushed 5 t = ((cfg0.win 5).blk t).view.read (Elt Ideal) (featureMap m c) := by
  show (cfg0.win 5).cut (grid0.coords t) ((dats m 0 c).after 5 t) = _
  rw [after0_5]
  unfold outsAt0
  rw [out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)]
  obtain ⟨e0, e1⟩ := out_index t
  funext y
  have hy0 : (y 0).val < 512 := (y 0).isLt
  have hy1 : (y 1).val < 3 := (y 1).isLt
  refine (brow_eq_fm (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    ⟨512 * t.val + (y 0).val, row_lt t ⟨(y 0).val, hy0⟩⟩ ⟨(y 0).val, hy0⟩
    (fun j => grid_block m c t ⟨(y 0).val, hy0⟩ j) (x0_block m c t) (x1_block m c t) (xsq_block m c t) (ey_block m c t)
    ⟨(y 1).val, hy1⟩).trans ?_
  show Cert.SetConv.fm _ _ _ _ _ = Cert.SetConv.fm _ _ _ ⟨(((cfg0.win 5).blk t).view.emb y 0).val, _⟩ ⟨(((cfg0.win 5).blk t).view.emb y 1).val, _⟩
  congr 1
  · apply Fin.ext
    show 512 * t.val + (y 0).val = win0_5.index t (0 : Fin 2) * 512 + 1 * (y 0).val
    rw [e0]; omega
  · apply Fin.ext
    show (y 1).val = win0_5.index t (1 : Fin 2) * 3 + 1 * (y 1).val
    rw [e1]; omega

/-- An index of the output array is in point `t`'s block iff each coordinate is in the block's range on its axis. -/
theorem mem_blk (t : Fin cfg0.N) (i : S65536x3.Idx) :
    i ∈ ((cfg0.win 5).blk t).view.set ↔ ∀ a : Fin 2, win0_5.index t a * S512x3.size a ≤ (i a).val ∧ (i a).val < win0_5.index t a * S512x3.size a + S512x3.size a := by
  show i ∈ ((View.whole main_v12).slice (win0_5.rect t)).set ↔ _
  rw [View.set_slice_whole, Rect.mem_set_unit]
  exact Iff.rfl

/-- Every row lies in the block of the point `row / 512`. -/
theorem cover (i : S65536x3.Idx) : ∃ t : Fin cfg0.N, (cfg0.win 5).flush t = true ∧ i ∈ ((cfg0.win 5).blk t).view.set := by
  have hi0 : (i 0).val < 65536 := (i 0).isLt
  have hi1 : (i 1).val < 3 := (i 1).isLt
  have hN : cfg0.N = 128 := N_0
  refine ⟨⟨(i 0).val / 512, by rw [hN]; omega⟩, flush0_5 _, ?_⟩
  rw [mem_blk]
  obtain ⟨e0, e1⟩ := out_index ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e0]; dsimp only; omega
  | ⟨1, _⟩ =>
    show win0_5.index _ (1 : Fin 2) * 3 ≤ (i 1).val ∧ (i 1).val < win0_5.index _ (1 : Fin 2) * 3 + 3
    rw [e1]; omega

/-- After the region the output array is the feature map. -/
theorem final (c : Dev nD) : (dats m 0 c).arrAt 5 cfg0.N = featureMap m c :=
  (dats m 0 c).arrAt_eq_of_cover 5 (featureMap m c) (fun t _ => flushed_eq m c t) cover

/-- The run, read: the result buffer at the re-layout of the feature map, the three arguments unchanged. -/
theorem run : θ_run defs (onTc (τ := τ) (main (F := Ideal))) ⟨m, fun _ => 0, ρ⟩ fun r => ∀ c : Dev nD,
      r.2.mem ((c : Thread nD τ).loc main_v15) = relayout (F := Ideal) (featureMap m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v15 (Pipeline.mem_restRefs_of main_v15 (by decide) (by decide))).trans (result_of_final m c _ (final m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 0).trans (((dats m 0 c).arrAt_in 0 rfl _).trans ((A_eq m c 0).trans (V_main_arg2 m c)))⟩)
    (run_main m ρ)

end Cert.KernelIdeal.RunValue

end
-- ==== Proof.lean ====
/-
  A set convolution onto a 256 × 256 grid: for every grid point g and the 4096 context points xₙ with targets yₙ, the radial
  weights wₙ = exp(−½‖g − xₙ‖²), with the squared distance spelt expanded as (g₀² + g₁²) + (xₙ₀² + xₙ₁²) − 2(g₀xₙ₀ + g₁xₙ₁),
  give the density Σₙ wₙ and the two normalised channels Σₙ wₙ yₙₖ / Σₙ wₙ; the [65536, 3] map is re-laid to [1, 3, 256, 256].

  The kernel tiles the grid points in 128 blocks of 512 rows; per block it forms the 512 × 4096 weights from the block's
  two grid columns and three context rows computed on the host (the two coordinates and the squared norm of each context
  point), contracts them with the expanded targets [1 | Y], and divides columns 1 and 2 by column 0. The reference forms
  all 65536 × 4096 weights at once, writing the cross term as the matrix product of 2·grid with Xᵀ and dividing the
  exponent by the constant 1. Over the extended reals both are one function (Proof/Spec.lean): a product with the real 2
  distributes over any sum and a quotient by 1 is the identity, so no finiteness of the inputs is used; narrowing to half
  precision is the identity there, and a matrix product into a zero accumulator is the host's contraction.

  Modules: Spec (the function and the two laws), RefValue (the reference's result is that function), KPayload and KBlock
  (the kernel body's output block as a function of its input blocks), KArrays (what the input blocks hold), KFinal (the
  blocks tile the array; the run), KTail (the re-layout after the region). The three frames are the generated ones; the
  idealization rewrote nothing, so the preservation claim is trivial.
-/
import proofs.«178940_j65755949301956_1_alg».proof.Defs
import proofs.«178940_j65755949301956_1_alg».proof.Proof.Gen.Kernel
import proofs.«178940_j65755949301956_1_alg».proof.Proof.Gen.Kernel.Frame
import proofs.«178940_j65755949301956_1_alg».proof.Proof.Gen.KernelIdeal
import proofs.«178940_j65755949301956_1_alg».proof.Proof.Gen.KernelIdeal.Frame
import proofs.«178940_j65755949301956_1_alg».proof.Proof.Gen.ReferenceIdeal
import proofs.«178940_j65755949301956_1_alg».proof.Proof.Gen.ReferenceIdeal.Run
import proofs.«178940_j65755949301956_1_alg».proof.Proof.Gen.ReferenceIdeal.Read
import proofs.«178940_j65755949301956_1_alg».proof.Proof.Gen.Pre_finite_inputs
import proofs.«178940_j65755949301956_1_alg».proof.Proof.RefValue
import proofs.«178940_j65755949301956_1_alg».proof.Proof.KFinal
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the re-layout of the feature map of the (agreeing) arguments. -/
theorem algebraic : Cert.algebraic_KernelIdeal_ReferenceIdeal := by
  intro m ρ m' ρ' _ hagree
  refine ⟨fun c => Cert.KernelIdeal.TailValue.relayout (F := Ideal) (Cert.KernelIdeal.RunValue.featureMap m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2]
  unfold Cert.ReferenceIdeal.Read.val_main_v29 Cert.ReferenceIdeal.Read.val_main_v28 Cert.ReferenceIdeal.Read.val_main_v27
  rw [Cert.ReferenceIdeal.RefValue.feature_map_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
